-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

abbrev nBuf : Space → Nat
  | .hbm => 69
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S50000x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S1x128, .f32⟩
  | .hbm, ⟨68, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S_, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000, .i32⟩
  | .hbm, ⟨21, _⟩ => ⟨S850000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x128, .f32⟩
  | .hbm, ⟨65, _⟩ => ⟨S850000x1, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KAgg.lean ====
/-
  The aggregation along the edges, in the kernel program's own operations.

  Between the two kernel regions the program runs on the host what a graph convolution does with the transformed node
  array h and the edge array e: the edge endpoints, each followed by every node once (the self-loops); the in-degree of
  every node (ones scatter-added at the targets); its normaliser, the reciprocal square root where the degree is positive
  and zero elsewhere; and the rows of h gathered at the sources, scaled by the two endpoints' normalisers, scatter-added
  at the targets into a zero array. A negative node index counts from the end of the node axis.
  These are stated for any float family: nothing here looks inside a gather, a scatter or the reciprocal square root.
-/
import proofs.«128652_j71854802862196_1_alg».proof.KernelIdeal

noncomputable section

namespace Cert.KernelIdeal.Agg

open Cert.KernelIdeal Idealize.ShloMosaic

variable {F : FTy → Type} [FloatOps F] [Cert.KernelIdeal.Facts]

open Cert.KernelIdeal.Facts₀ in
/-- The edges' sources, then every node once. -/
def sources (e : (⟨S2x800000, .i32⟩ : BufTy).Contents (Elt F)) : (⟨S850000, .i32⟩ : BufTy).Contents (Elt F) :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

open Cert.KernelIdeal.Facts₀ in
/-- The edges' targets, then every node once. -/
def targets (e : (⟨S2x800000, .i32⟩ : BufTy).Contents (Elt F)) : (⟨S850000, .i32⟩ : BufTy).Contents (Elt F) :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

open Cert.KernelIdeal.Facts₀ in
/-- A list of node indices as a gather's index column, a negative index counting from the end. -/
def wrapIdx (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

open Cert.KernelIdeal.Facts₀ in
/-- Every node's in-degree, self-loop included: ones scatter-added at the targets into zeros. -/
def degree (tgt : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 tgt) (broadcastInDim S850000 ![] bcast_S_S850000 (constant S_ .f32 0x3F800000#32))

open Cert.KernelIdeal.Facts₀ in
/-- The test "the degree is positive". -/
def positive (d : (⟨S50000, .f32⟩ : BufTy).Contents (Elt F)) : (⟨S50000, .i1⟩ : BufTy).Contents (Elt F) :=
  cmpf (F := F) .ogt d (broadcastInDim S50000 ![] bcast_S_S50000 (constant S_ .f32 0x00000000#32))

open Cert.KernelIdeal.Facts₀ in
/-- The normaliser: the given reciprocal square roots where the test holds, the given scalar elsewhere. -/
def normaliser (pos : (⟨S50000, .i1⟩ : BufTy).Contents (Elt F)) (rs : (⟨S50000, .f32⟩ : BufTy).Contents (Elt F)) (z : (⟨S_, .f32⟩ : BufTy).Contents (Elt F)) :
    (⟨S50000, .f32⟩ : BufTy).Contents (Elt F) :=
  select pos rs (broadcastInDim S50000 ![] bcast_S_S50000 (id z))

open Cert.KernelIdeal.Facts₀ in
/-- The rows of h at the sources, each scaled by its two endpoints' normalisers, scatter-added at the targets into zeros. -/
def scatterRows (h : (⟨S50000x128, .f32⟩ : BufTy).Contents (Elt F)) (src tgt : (⟨S850000, .i32⟩ : BufTy).Contents (Elt F)) (dinv : (⟨S50000, .f32⟩ : BufTy).Contents (Elt F)) :
    (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 tgt)
    (mulf (Host.gather gather_S50000x128_S850000x1_S850000x128_1_0_n_n_0_1_1128 h (wrapIdx src))
      (broadcastInDim S850000x128 ![0, 1] bcast_S850000x1_S850000x128_0_1
        (broadcastInDim S850000x1 ![0] bcast_S850000_S850000x1_0
          (mulf (Host.gather gather_S50000_S850000x1_S850000_n_0_n_n_0_1_1 dinv (wrapIdx src))
            (Host.gather gather_S50000_S850000x1_S850000_n_0_n_n_0_1_1 dinv (wrapIdx tgt))))))

/-- The whole aggregation of the transformed node array h along the edges e. -/
def aggregate (h : (⟨S50000x128, .f32⟩ : BufTy).Contents (Elt F)) (e : (⟨S2x800000, .i32⟩ : BufTy).Contents (Elt F)) : (⟨S50000x128, .f32⟩ : BufTy).Contents (Elt F) :=
  scatterRows h (sources e) (targets e)
    (normaliser (positive (degree (targets (F := F) e))) (Host.rsqrt (degree (targets (F := F) e))) (constant S_ .f32 0x00000000#32))

end Cert.KernelIdeal.Agg

end
-- ==== Proof.KAggS1.lean ====
/-
  The host operations before the first region and the first two stretches after it, read at the buffers later items use.
  Each stretch is read from ANY buffer contents Wp: what it writes is the stage function of what Wp holds where it reads.
-/
import proofs.«128652_j71854802862196_1_alg».proof.Proof.Gen.KernelIdeal.Launch
import proofs.«128652_j71854802862196_1_alg».proof.Proof.KAgg
import Idealize.ShloMosaic.Lib.StableHlo.Run

set_option maxRecDepth 16384

noncomputable section

namespace Cert.KernelIdeal.Agg

open Cert.KernelIdeal Cert.KernelIdeal.Gen Idealize.ShloMosaic Idealize.ShloMosaic.TcCoe Idealize.SL.Sem Idealize.ShloMosaic.StableHlo

variable {F : FTy → Type} [FloatOps F]

/-- Before the first region: the first bias as a one-row array. -/
theorem pre_bias (Wp : Valuation τ sig (Elt F)) :
    StableHlo.after hostOps0 Wp (Proc.devRef .tc main_v0) = shapeCast S1x128 (Wp (Proc.devRef .tc main_arg3)) shapeCasts_S128_S1x128 := by
  after_results; rfl

set_option maxHeartbeats 2000000 in
/-- The first stretch leaves the sources with the self-loops, -/
theorem s1_sources (Wp : Valuation τ sig (Elt F)) :
    StableHlo.after hostOps1 Wp (Proc.devRef .tc main_v7) = sources (F := F) (Wp (Proc.devRef .tc main_arg1)) := by
  after_results; rfl

set_option maxHeartbeats 2000000 in
/-- the targets with the self-loops, -/
theorem s1_targets (Wp : Valuation τ sig (Elt F)) :
    StableHlo.after hostOps1 Wp (Proc.devRef .tc main_v8) = targets (F := F) (Wp (Proc.devRef .tc main_arg1)) := by
  after_results; rfl

set_option maxHeartbeats 2000000 in
/-- the test "the degree is positive", -/
theorem s1_positive (Wp : Valuation τ sig (Elt F)) :
    StableHlo.after hostOps1 Wp (Proc.devRef .tc main_v14) = positive (F := F) (degree (targets (F := F) (Wp (Proc.devRef .tc main_arg1)))) := by
  after_results; rfl

set_option maxHeartbeats 2000000 in
/-- the degrees' reciprocal square roots, -/
theorem s1_rsqrt (Wp : Valuation τ sig (Elt F)) :
    StableHlo.after hostOps1 Wp (Proc.devRef .tc main_v15) = Host.rsqrt (degree (F := F) (targets (F := F) (Wp (Proc.devRef .tc main_arg1)))) := by
  after_results; rfl

set_option maxHeartbeats 2000000 in
/-- and the zero the normaliser takes elsewhere. -/
theorem s1_zero (Wp : Valuation τ sig (Elt F)) :
    StableHlo.after hostOps1 Wp (Proc.devRef .tc main_cst_2) = constant (F := F) S_ .f32 0x00000000#32 := by
  after_results

set_option maxHeartbeats 2000000 in
/-- The second stretch (the selection between the two) leaves the normaliser. -/
theorem s2_normaliser (Wp : Valuation τ sig (Elt F)) :
    StableHlo.after hostOps1_1 Wp (Proc.devRef .tc main_v16)
      = normaliser (F := F) (Wp (Proc.devRef .tc main_v14)) (Wp (Proc.devRef .tc main_v15)) (Wp (Proc.devRef .tc main_cst_2)) := by
  after_results; rfl

end Cert.KernelIdeal.Agg

end
-- ==== Proof.KAggS3.lean ====
/-
  The third stretch after the first region, read at the second region's operand buffers, from any buffer contents Wp.
-/
import proofs.«128652_j71854802862196_1_alg».proof.Proof.Gen.KernelIdeal.Launch
import proofs.«128652_j71854802862196_1_alg».proof.Proof.KAgg
import Idealize.ShloMosaic.Lib.StableHlo.Run

set_option maxRecDepth 16384

noncomputable section

namespace Cert.KernelIdeal.Agg

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- The third stretch leaves the aggregated array: the scaled rows scatter-added at the targets. -/
theorem s3_aggregated (Wp : Valuation τ sig (Elt F)) :
    StableHlo.after hostOps1_2 Wp (Proc.devRef .tc main_v44)
      = scatterRows (F := F) (Wp (Proc.devRef .tc main_v1)) (Wp (Proc.devRef .tc main_v7)) (Wp (Proc.devRef .tc main_v8)) (Wp (Proc.devRef .tc main_v16)) := by
  after_results; rfl

set_option maxHeartbeats 4000000 in
/-- and the two later biases as one-row arrays. -/
theorem s3_bias_g (Wp : Valuation τ sig (Elt F)) :
    StableHlo.after hostOps1_2 Wp (Proc.devRef .tc main_v45) = shapeCast S1x128 (Wp (Proc.devRef .tc main_arg5)) shapeCasts_S128_S1x128 := by
  after_results; rfl

set_option maxHeartbeats 4000000 in
theorem s3_bias_2 (Wp : Valuation τ sig (Elt F)) :
    StableHlo.after hostOps1_2 Wp (Proc.devRef .tc main_v46) = shapeCast S1x128 (Wp (Proc.devRef .tc main_arg7)) shapeCasts_S128_S1x128 := by
  after_results; rfl

end Cert.KernelIdeal.Agg

end
-- ==== Proof.Dense.lean ====
/-
  The two dense ends of a graph-convolution layer, index by index over the extended reals.

  Before the aggregation every node's feature row goes through a dense layer with bias and a rectifier and then
  through a second weight matrix:  pre[p, q] = ∑ₖ max(∑ⱼ x[p, j]·W₁[j, k] + b₁[k], 0) · Wg[k, q].
  After the aggregation a bias, a rectifier, a weight matrix and a last bias:
  post[p, q] = ∑ₖ max(agg[p, k] + bg[k], 0) · W₂[k, q] + b₂[q].
  Both are row-local: row p of the result depends on row p of the node array only, which is what lets a row tile
  of the result be computed from the same row tile of the operand (`preAgg_rows`, `postAgg_rows`).
  The zero the rectifier compares with is kept as the float word it is printed as.
-/
import Idealize.ShloMosaic.PureOps.Ideal.Laws
import Idealize.ShloMosaic.Lib.ValueIdx
import Idealize.ShloMosaic.Lib.Pipeline.Value

noncomputable section

namespace Cert.Dense

open Idealize.ShloMosaic Idealize.ShloMosaic.ValueIdx

/-- An [a × b] array of extended reals. -/
abbrev Mat (a b : Nat) : Type := (⟨2, ![a, b]⟩ : Shape).Idx → EReal

/-- The rectifier's zero, as printed. -/
abbrev zeroWord : EReal := Ideal.ofBits .f32 0x00000000#32

/-- Entry (p, k) of the first dense layer after its rectifier: max(∑ⱼ x[p, j]·W[j, k] + b[k], 0). -/
def hidden {n : Nat} (x : Mat n 128) (W : Mat 128 128) (b : Fin 128 → EReal) (p : Fin n) (k : Fin 128) : EReal :=
  max ((∑ j : Fin 128, x (ix2 p j) * W (ix2 j k)) + b k) zeroWord

/-- The transform before the aggregation: the rectified first layer times the second weight matrix. -/
def preAgg {n : Nat} (x : Mat n 128) (W1 : Mat 128 128) (b1 : Fin 128 → EReal) (Wg : Mat 128 128) : Mat n 128 :=
  fun i => ∑ k : Fin 128, hidden x W1 b1 (i 0) k * Wg (ix2 k (i 1))

/-- The transform after the aggregation: bias, rectifier, weight matrix, bias. -/
def postAgg {n : Nat} (agg : Mat n 128) (bg : Fin 128 → EReal) (W2 : Mat 128 128) (b2 : Fin 128 → EReal) : Mat n 128 :=
  fun i => (∑ k : Fin 128, max (agg (ix2 (i 0) k) + bg k) zeroWord * W2 (ix2 k (i 1))) + b2 (i 1)

/-- Row r of a tile is row p of the array: then the tile's transform at (r, q) is the array's at (p, q). -/
theorem preAgg_rows {n n' : Nat} (xb : Mat n 128) (x : Mat n' 128) (W1 : Mat 128 128) (b1 : Fin 128 → EReal) (Wg : Mat 128 128)
    (r : Fin n) (p : Fin n') (q : Fin 128) (h : ∀ j : Fin 128, xb (ix2 r j) = x (ix2 p j)) :
    preAgg xb W1 b1 Wg (ix2 r q) = preAgg x W1 b1 Wg (ix2 p q) := by
  show (∑ k : Fin 128, hidden xb W1 b1 r k * Wg (ix2 k q)) = ∑ k : Fin 128, hidden x W1 b1 p k * Wg (ix2 k q)
  refine Finset.sum_congr rfl fun k _ => ?_
  unfold hidden
  simp only [h]

/-- The same for the transform after the aggregation. -/
theorem postAgg_rows {n n' : Nat} (ab : Mat n 128) (a : Mat n' 128) (bg : Fin 128 → EReal) (W2 : Mat 128 128) (b2 : Fin 128 → EReal)
    (r : Fin n) (p : Fin n') (q : Fin 128) (h : ∀ j : Fin 128, ab (ix2 r j) = a (ix2 p j)) :
    postAgg ab bg W2 b2 (ix2 r q) = postAgg a bg W2 b2 (ix2 p q) := by
  show (∑ k : Fin 128, max (ab (ix2 r k) + bg k) zeroWord * W2 (ix2 k q)) + b2 q
      = (∑ k : Fin 128, max (a (ix2 p k) + bg k) zeroWord * W2 (ix2 k q)) + b2 q
  simp only [h]

/-- The tile's transform from tile-sized operands that are the array's operands: weights and bias equal as functions, the
    tile's row r the array's row p. -/
theorem preAgg_congr {n n' : Nat} (xb : Mat n 128) (x : Mat n' 128) (W1b W1 : Mat 128 128) (bb b : Fin 128 → EReal) (Wgb Wg : Mat 128 128)
    (r : Fin n) (p : Fin n') (q : Fin 128) (hx : ∀ j : Fin 128, xb (ix2 r j) = x (ix2 p j)) (hW1 : W1b = W1) (hb : bb = b) (hWg : Wgb = Wg) :
    preAgg xb W1b bb Wgb (ix2 r q) = preAgg x W1 b Wg (ix2 p q) := by
  subst hW1 hb hWg
  exact preAgg_rows xb x W1b bb Wgb r p q hx

theorem postAgg_congr {n n' : Nat} (ab : Mat n 128) (a : Mat n' 128) (bgb bg : Fin 128 → EReal) (W2b W2 : Mat 128 128) (b2b b2 : Fin 128 → EReal)
    (r : Fin n) (p : Fin n') (q : Fin 128) (ha : ∀ j : Fin 128, ab (ix2 r j) = a (ix2 p j)) (hbg : bgb = bg) (hW2 : W2b = W2) (hb2 : b2b = b2) :
    postAgg ab bgb W2b b2b (ix2 r q) = postAgg a bg W2 b2 (ix2 p q) := by
  subst hbg hW2 hb2
  exact postAgg_rows ab a bgb W2b b2b r p q ha

/-- Equal operands, equal transforms. -/
theorem preAgg_eq_of {n : Nat} {x x' : Mat n 128} {W1 W1' : Mat 128 128} {b b' : Fin 128 → EReal} {Wg Wg' : Mat 128 128}
    (hx : x = x') (hW1 : W1 = W1') (hb : b = b') (hWg : Wg = Wg') : preAgg x W1 b Wg = preAgg x' W1' b' Wg' := by
  subst hx hW1 hb hWg; rfl

theorem postAgg_eq_of {n : Nat} {a a' : Mat n 128} {bg bg' : Fin 128 → EReal} {W2 W2' : Mat 128 128} {b2 b2' : Fin 128 → EReal}
    (ha : a = a') (hbg : bg = bg') (hW2 : W2 = W2') (hb2 : b2 = b2') : postAgg a bg W2 b2 = postAgg a' bg' W2' b2' := by
  subst ha hbg hW2 hb2; rfl

/-- A length-128 array reshaped to one row, read at (0, k): its entry k. -/
theorem row_of_reshape {α : Type} (b : (⟨1, ![128]⟩ : Shape).Idx → α) (h : (⟨1, ![128]⟩ : Shape).ShapeCasts ⟨2, ![1, 128]⟩) (k : Fin 128) :
    shapeCast (⟨2, ![1, 128]⟩ : Shape) b h (ix2 0 k) = b (ix1 k) := by
  refine (shapeCast_addUnit_apply ![128] b h (ix2 0 k)).trans (congrArg b (funext fun a => ?_))
  match a with
  | ⟨0, _⟩ => rfl

end Cert.Dense

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KPay.lean ====
/-
  What each kernel body stores, entry by entry, at the ideal instance.

  The first body's stored value at (r, q) is the transform before the aggregation of its row tile: a product into a zero
  accumulator, the bias row broadcast down the rows, the rectifier, a second product into zero. The second body's is the
  transform after the aggregation of its tile. A change of float format is the identity here, so the casts to bf16 in
  front of each product do not show.
-/
import proofs.«128652_j71854802862196_1_alg».proof.Proof.Gen.KernelIdeal.Skeleton
import proofs.«128652_j71854802862196_1_alg».proof.Proof.Dense
import proofs.«128652_j71854802862196_1_alg».proof.Proof.LibMatmulAt
import Idealize.ShloMosaic.Lib.Pipeline.Value

noncomputable section

namespace Cert.KernelIdeal.Pay

open Cert.KernelIdeal Cert.KernelIdeal.Gen Idealize.ShloMosaic Idealize.ShloMosaic.ValueIdx

/-! ## Where the product's dimension numbers read their operands -/

theorem dot_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A tile's product into zero at (p, q): the sum over the contracted axis of left[p, k] · right[k, q]. -/
theorem matmul_at {φ₁ φ₂ : FTy} (l : FVec Ideal S2000x128 φ₁) (w : FVec Ideal S128x128 φ₂) (p : Fin 2000) (q : Fin 128) :
    matmul dot_S2000x128_S128x128_S2000x128_1_0_0_1_n_n none l w (constant (F := Ideal) S2000x128 .f32 0x00000000#32) (ix2 p q)
      = ∑ k : Fin 128, l (ix2 p k) * w (ix2 k q) :=
  MatmulAt.matmul_zero_at dot_S2000x128_S128x128_S2000x128_1_0_0_1_n_n rfl rfl dot_lhs0 dot_lhs1 dot_rhs0 dot_rhs1 none l w p q

/-- The bias row, cast to its own shape and broadcast down the tile's rows, read at (p, k): the row's entry k. -/
theorem bias_at (b : Vec Ideal S1x128 .f32) (p : Fin 2000) (k : Fin 128) :
    broadcastTo S2000x128 (shapeCast S1x128 b shapeCasts_S1x128_S1x128) broadcasts_S1x128_S2000x128 (ix2 p k) = b (ix2 0 k) := by
  rw [shapeCast_self]
  exact broadcastTo_apply b broadcasts_S1x128_S2000x128 (ix2 p k) (ix2 0 k) (fun a => by
    match a with
    | ⟨0, _⟩ => rfl
    | ⟨1, _⟩ => rfl)

/-! ## The two bodies' stored values -/

/-- The first body's stored value at (r, q): the transform before the aggregation of the loaded tile. -/
theorem pay0_at (x0 : Vec Ideal S2000x128 .f32) (x1 : Vec Ideal S128x128 .f32) (x2 : Vec Ideal S1x128 .f32) (x3 : Vec Ideal S128x128 .f32)
    (r : Fin 2000) (q : Fin 128) :
    k0_pay1 (F := Ideal) x0 x1 x2 x3 (ix2 r q) = Dense.preAgg x0 x1 (fun k => x2 (ix2 0 k)) x3 (ix2 r q) := by
  unfold k0_pay1
  refine (matmul_at _ _ r q).trans ?_
  show _ = ∑ k : Fin 128, Dense.hidden x0 x1 (fun k => x2 (ix2 0 k)) r k * x3 (ix2 k q)
  refine Finset.sum_congr rfl fun k _ => ?_
  refine congrArg (· * x3 (ix2 k q)) ?_
  show max (matmul dot_S2000x128_S128x128_S2000x128_1_0_0_1_n_n none (truncf .bf16 x0 bitsLt_bf16_f32) (truncf .bf16 x1 bitsLt_bf16_f32) (constant (F := Ideal) S2000x128 .f32 0x00000000#32) (ix2 r k)
      + broadcastTo S2000x128 (shapeCast S1x128 x2 shapeCasts_S1x128_S1x128) broadcasts_S1x128_S2000x128 (ix2 r k)) Dense.zeroWord = _
  rw [matmul_at, bias_at]
  rfl

/-- The second body's stored value at (r, q): the transform after the aggregation of the loaded tile. -/
theorem pay1_at (x0 : Vec Ideal S2000x128 .f32) (x1 : Vec Ideal S1x128 .f32) (x2 : Vec Ideal S128x128 .f32) (x3 : Vec Ideal S1x128 .f32)
    (r : Fin 2000) (q : Fin 128) :
    k1_pay1 (F := Ideal) x0 x1 x2 x3 (ix2 r q) = Dense.postAgg x0 (fun k => x1 (ix2 0 k)) x2 (fun k => x3 (ix2 0 k)) (ix2 r q) := by
  unfold k1_pay1
  show matmul dot_S2000x128_S128x128_S2000x128_1_0_0_1_n_n none _ _ (constant (F := Ideal) S2000x128 .f32 0x00000000#32) (ix2 r q)
      + broadcastTo S2000x128 (shapeCast S1x128 x3 shapeCasts_S1x128_S1x128) broadcasts_S1x128_S2000x128 (ix2 r q) = _
  rw [matmul_at, bias_at]
  show _ = (∑ k : Fin 128, max (x0 (ix2 r k) + x1 (ix2 0 k)) Dense.zeroWord * x2 (ix2 k q)) + x3 (ix2 0 q)
  refine congrArg (· + x3 (ix2 0 q)) (Finset.sum_congr rfl fun k _ => ?_)
  refine congrArg (· * x2 (ix2 k q)) ?_
  show max (shapeCast S2000x128 x0 shapeCasts_S2000x128_S2000x128 (ix2 r k)
      + broadcastTo S2000x128 (shapeCast S1x128 x1 shapeCasts_S1x128_S1x128) broadcasts_S1x128_S2000x128 (ix2 r k)) Dense.zeroWord = _
  rw [shapeCast_self, bias_at]

end Cert.KernelIdeal.Pay

end
-- ==== Proof.Reg0.lean ====
/-
  The first region's output array after its run, whatever the buffers hold when it is entered.

  The region walks 25 row tiles of 2000 rows. At tile t the body loads rows 2000·t … 2000·t + 1999 of the node array, the
  two weight matrices and the bias row whole, and stores the transform before the aggregation of that tile; the tile is
  written back to the same rows of the output. The transform is row-local, so each written tile is that block of ONE
  function of the whole arrays, and the 25 tiles cover the output: the array ends at that function.
-/
import proofs.«128652_j71854802862196_1_alg».proof.Proof.Gen.KernelIdeal.Frame
import proofs.«128652_j71854802862196_1_alg».proof.Proof.KPay

set_option maxRecDepth 16384

noncomputable section

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's operand arrays as it finds them, at their literal shapes. -/
abbrev xArr (c : Dev nD) : Dense.Mat 50000 128 := V c main_arg0
abbrev w1Arr (c : Dev nD) : Dense.Mat 128 128 := V c main_arg2
abbrev bRow (c : Dev nD) : Dense.Mat 1 128 := V c main_v0
abbrev wgArr (c : Dev nD) : Dense.Mat 128 128 := V c main_arg4

/-- What the output array ends holding: the transform before the aggregation of the whole node array. -/
def G (c : Dev nD) : Dense.Mat 50000 128 :=
  Dense.preAgg (xArr V c) (w1Arr V c) (fun k => bRow V c (ix2 0 k)) (wgArr V c)

theorem hz : (![0, 0] : Fin 2 → Nat) = fun _ => 0 := funext fun a => by fin_cases a <;> rfl

/-- The printed index maps over the grid: the node tile moves with the output tile; every other block index is 0. -/
theorem idx_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 24 :=
  (by decide +kernel : ∀ t : Fin grid0.N, _)

/-- Every row tile of the output is some point's. -/
theorem idx_onto : ∀ q0 : Fin 25, ∃ t : Fin cfg0.N, win0_4.index t = ![q0.val, 0] :=
  (by decide +kernel : ∀ q0 : Fin 25, ∃ t : Fin grid0.N, win0_4.index t = ![q0.val, 0])

/-- A whole-array window's block is the array. -/
theorem w1_blk (c : Dev nD) (t : Fin cfg0.N) : iblk0 V c 1 t = w1Arr V c := by
  obtain ⟨-, -, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega
theorem b_blk (c : Dev nD) (t : Fin cfg0.N) : iblk0 V c 2 t = bRow V c := by
  obtain ⟨-, -, -, -, -, e0, e1, -⟩ := idx_facts t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem wg_blk (c : Dev nD) (t : Fin cfg0.N) : iblk0 V c 3 t = wgArr V c := by
  obtain ⟨-, -, -, -, -, -, -, e0, e1, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- WHAT POINT t WRITES BACK is block t of `G`. -/
theorem flushed_eq (c : Dev nD) (t : Fin cfg0.N) :
    (dat0 (F := Ideal) V c).flushed 4 t = ((cfg0.win 4).blk t).view.read (Elt Ideal) (G V c) := by
  show (cfg0.win 4).cut (grid0.coords t) ((dat0 (F := Ideal) V c).after 4 t) = _
  rw [after0_4]
  unfold out0_4
  rw [View.canon_unit_zero hz]
  simp only [View.ld_unit_zero (S := S2000x128) hz, View.ld_unit_zero (S := S128x128) hz, View.ld_unit_zero (S := S1x128) hz]
  obtain ⟨e0, e1, e2, -⟩ := idx_facts t
  funext j
  obtain ⟨r, q, rfl⟩ : ∃ (r : Fin 2000) (q : Fin 128), j = ix2 r q := ⟨j 0, j 1, eq_ix2 j⟩
  refine (Pay.pay0_at (iblk0 V c 0 t) (iblk0 V c 1 t) (iblk0 V c 2 t) (iblk0 V c 3 t) r q).trans ?_
  show _ = G V c (((cfg0.win 4).blk t).view.emb (ix2 r q))
  have he : ((cfg0.win 4).blk t).view.emb (ix2 r q)
      = ix2 (n0 := 50000) (n1 := 128) ⟨(((cfg0.win 4).blk t).view.emb (ix2 r q) 0).val, (((cfg0.win 4).blk t).view.emb (ix2 r q) 0).isLt⟩ q := by
    funext a; apply Fin.ext
    match a with
    | ⟨0, _⟩ => rfl
    | ⟨1, _⟩ => show win0_4.index t (1 : Fin 2) * 128 + 1 * q.val = q.val; omega
  rw [he]
  unfold G
  refine Dense.preAgg_congr _ _ _ _ _ _ _ _ r _ q (fun j => ?_) (w1_blk V c t) (by rw [b_blk V c t]) (wg_blk V c t)
  show V c main_arg0 (((cfg0.win 0).blk t).view.emb (ix2 r j)) = V c main_arg0 _
  refine congrArg (V c main_arg0) (funext fun a => Fin.ext ?_)
  match a with
  | ⟨0, _⟩ => show win0_0.index t (0 : Fin 2) * 2000 + 1 * r.val = win0_4.index t (0 : Fin 2) * 2000 + 1 * r.val; omega
  | ⟨1, _⟩ => show win0_0.index t (1 : Fin 2) * 128 + 1 * j.val = j.val; omega

/-- An index of the output is in point t's block iff each coordinate is in the block's range on its axis. -/
theorem mem_blk (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v1).slice (win0_4.rect t)).set ↔ _
  rw [View.set_slice_whole, Rect.mem_set_unit]
  exact Iff.rfl

/-- The 25 row tiles cover the output: row p is in tile p / 2000. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- THE ARRAY after the region's run. -/
theorem final (c : Dev nD) : (dat0 (F := Ideal) V c).arrAt 4 cfg0.N = G V c :=
  (dat0 (F := Ideal) V c).arrAt_eq_of_cover 4 (G V c) (fun t _ => flushed_eq V c t) cover

end Cert.KernelIdeal.Reg0

end
-- ==== Proof.Reg1.lean ====
/-
  The second region's output array after its run, whatever the buffers hold when it is entered.

  25 row tiles of 2000 rows again: at tile t the body loads rows 2000·t … 2000·t + 1999 of the aggregated array, the two
  bias rows and the weight matrix whole, and stores the transform after the aggregation of that tile, written back to the
  same rows of the result. Row-local, so each written tile is that block of one function of the whole arrays, and the
  tiles cover the result.
-/
import proofs.«128652_j71854802862196_1_alg».proof.Proof.Gen.KernelIdeal.Frame
import proofs.«128652_j71854802862196_1_alg».proof.Proof.KPay

set_option maxRecDepth 16384

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's operand arrays as it finds them, at their literal shapes. -/
abbrev aggArr (c : Dev nD) : Dense.Mat 50000 128 := V c main_v44
abbrev bgRow (c : Dev nD) : Dense.Mat 1 128 := V c main_v45
abbrev w2Arr (c : Dev nD) : Dense.Mat 128 128 := V c main_arg6
abbrev b2Row (c : Dev nD) : Dense.Mat 1 128 := V c main_v46

/-- What the result array ends holding: the transform after the aggregation of the whole aggregated array. -/
def G (c : Dev nD) : Dense.Mat 50000 128 :=
  Dense.postAgg (aggArr V c) (fun k => bgRow V c (ix2 0 k)) (w2Arr V c) (fun k => b2Row V c (ix2 0 k))

theorem hz : (![0, 0] : Fin 2 → Nat) = fun _ => 0 := funext fun a => by fin_cases a <;> rfl

/-- The printed index maps over the grid: the aggregated tile moves with the result tile; every other block index is 0. -/
theorem idx_facts : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 24 :=
  (by decide +kernel : ∀ t : Fin grid1.N, _)

/-- Every row tile of the result is some point's. -/
theorem idx_onto : ∀ q0 : Fin 25, ∃ t : Fin cfg1.N, win1_4.index t = ![q0.val, 0] :=
  (by decide +kernel : ∀ q0 : Fin 25, ∃ t : Fin grid1.N, win1_4.index t = ![q0.val, 0])

/-- A whole-array window's block is the array. -/
theorem bg_blk (c : Dev nD) (t : Fin cfg1.N) : iblk1 V c 1 t = bgRow V c := by
  obtain ⟨-, -, -, e0, e1, -⟩ := idx_facts t
  funext y
  show V c main_v45 (((cfg1.win 1).blk t).view.emb y) = V c main_v45 y
  refine congrArg (V c main_v45) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega
theorem w2_blk (c : Dev nD) (t : Fin cfg1.N) : iblk1 V c 2 t = w2Arr V c := by
  obtain ⟨-, -, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem b2_blk (c : Dev nD) (t : Fin cfg1.N) : iblk1 V c 3 t = b2Row V c := by
  obtain ⟨-, -, -, -, -, -, -, e0, e1, -⟩ := idx_facts t
  funext y
  show V c main_v46 (((cfg1.win 3).blk t).view.emb y) = V c main_v46 y
  refine congrArg (V c main_v46) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- WHAT POINT t WRITES BACK is block t of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S2000x128) hz, View.ld_unit_zero (S := S128x128) hz, View.ld_unit_zero (S := S1x128) hz]
  obtain ⟨e0, e1, e2, -⟩ := idx_facts t
  funext j
  obtain ⟨r, q, rfl⟩ : ∃ (r : Fin 2000) (q : Fin 128), j = ix2 r q := ⟨j 0, j 1, eq_ix2 j⟩
  refine (Pay.pay1_at (iblk1 V c 0 t) (iblk1 V c 1 t) (iblk1 V c 2 t) (iblk1 V c 3 t) r q).trans ?_
  show _ = G V c (((cfg1.win 4).blk t).view.emb (ix2 r q))
  have he : ((cfg1.win 4).blk t).view.emb (ix2 r q)
      = ix2 (n0 := 50000) (n1 := 128) ⟨(((cfg1.win 4).blk t).view.emb (ix2 r q) 0).val, (((cfg1.win 4).blk t).view.emb (ix2 r q) 0).isLt⟩ q := by
    funext a; apply Fin.ext
    match a with
    | ⟨0, _⟩ => rfl
    | ⟨1, _⟩ => show win1_4.index t (1 : Fin 2) * 128 + 1 * q.val = q.val; omega
  rw [he]
  unfold G
  refine Dense.postAgg_congr _ _ _ _ _ _ _ _ r _ q (fun j => ?_) (by rw [bg_blk V c t]) (w2_blk V c t) (by rw [b2_blk V c t])
  show V c main_v44 (((cfg1.win 0).blk t).view.emb (ix2 r j)) = V c main_v44 _
  refine congrArg (V c main_v44) (funext fun a => Fin.ext ?_)
  match a with
  | ⟨0, _⟩ => show win1_0.index t (0 : Fin 2) * 2000 + 1 * r.val = win1_4.index t (0 : Fin 2) * 2000 + 1 * r.val; omega
  | ⟨1, _⟩ => show win1_0.index t (1 : Fin 2) * 128 + 1 * j.val = j.val; omega

/-- An index of the result is in point t's block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v47).slice (win1_4.rect t)).set ↔ _
  rw [View.set_slice_whole, Rect.mem_set_unit]
  exact Iff.rfl

/-- The 25 row tiles cover the result: row p is in tile p / 2000. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE ARRAY after the region's run. -/
theorem final (c : Dev nD) : (dat1 (F := Ideal) V c).arrAt 4 cfg1.N = G V c :=
  (dat1 (F := Ideal) V c).arrAt_eq_of_cover 4 (G V c) (fun t _ => flushed_eq V c t) cover

end Cert.KernelIdeal.Reg1

end
-- ==== Proof.KHost.lean ====
/-
  The kernel program's result, from the launch memory.

  The run's buffer contents at each segment boundary are a fold: the first bias reshaped, the first region's output (the
  transform before the aggregation, whatever the region found), three host stretches that aggregate it along the edges
  and reshape the two later biases, the second region's output (the transform after the aggregation). Walking the fold
  back: every argument array is as launched wherever an item reads it, so the result buffer ends at
  postAgg (aggregate (preAgg x W₁ b₁ Wg) e) bg W₂ b₂ of the launch memory's arrays.
-/
import proofs.«128652_j71854802862196_1_alg».proof.Proof.Gen.KernelIdeal.Frame
import proofs.«128652_j71854802862196_1_alg».proof.Proof.KAggS1
import proofs.«128652_j71854802862196_1_alg».proof.Proof.KAggS3
import proofs.«128652_j71854802862196_1_alg».proof.Proof.Reg0
import proofs.«128652_j71854802862196_1_alg».proof.Proof.Reg1

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- A stretch leaves a buffer it does not write as it found it: no operation of the stretch has that buffer as its result. -/
local macro "unwritten" : tactic => `(tactic| (
  refine StableHlo.after_of_forall_not_mem _ _ (List.forall_iff_forall_mem.mp ?_)
  simp only [hostOps0, hostOps1, hostOps1_1, hostOps1_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The first region's operands at its entry -/

theorem entry0_x (c : Dev nD) : W1 m ρ c (Proc.devRef .tc main_arg0) = m ((c : Thread nD τ).loc main_arg0) :=
  (show W1 m ρ c (Proc.devRef .tc main_arg0) = W0 m ρ c (Proc.devRef .tc main_arg0) by unwritten).trans rfl
theorem entry0_w1 (c : Dev nD) : W1 m ρ c (Proc.devRef .tc main_arg2) = m ((c : Thread nD τ).loc main_arg2) :=
  (show W1 m ρ c (Proc.devRef .tc main_arg2) = W0 m ρ c (Proc.devRef .tc main_arg2) by unwritten).trans rfl
theorem entry0_wg (c : Dev nD) : W1 m ρ c (Proc.devRef .tc main_arg4) = m ((c : Thread nD τ).loc main_arg4) :=
  (show W1 m ρ c (Proc.devRef .tc main_arg4) = W0 m ρ c (Proc.devRef .tc main_arg4) by unwritten).trans rfl
theorem entry0_e (c : Dev nD) : W1 m ρ c (Proc.devRef .tc main_arg1) = m ((c : Thread nD τ).loc main_arg1) :=
  (show W1 m ρ c (Proc.devRef .tc main_arg1) = W0 m ρ c (Proc.devRef .tc main_arg1) by unwritten).trans rfl
theorem entry0_b (c : Dev nD) :
    W1 m ρ c (Proc.devRef .tc main_v0) = shapeCast S1x128 (m ((c : Thread nD τ).loc main_arg3)) shapeCasts_S128_S1x128 :=
  Agg.pre_bias (W0 m ρ c)

/-- The first region's output array at its exit: the transform before the aggregation of the launched arrays. -/
theorem exit0 (c : Dev nD) :
    W2 m ρ c (Proc.devRef .tc main_v1)
      = Dense.preAgg (n := 50000) (m ((c : Thread nD τ).loc main_arg0)) (m ((c : Thread nD τ).loc main_arg2))
          (fun k => m ((c : Thread nD τ).loc main_arg3) (ix1 k)) (m ((c : Thread nD τ).loc main_arg4)) := by
  refine ((W2_arr m ρ c 4).trans (Reg0.final (V1 m ρ) c)).trans ?_
  unfold Reg0.G
  refine Dense.preAgg_eq_of (entry0_x m ρ c) (entry0_w1 m ρ c) (funext fun k => ?_) (entry0_wg m ρ c)
  show W1 m ρ c (Proc.devRef .tc main_v0) (ix2 0 k) = _
  rw [entry0_b]
  exact Dense.row_of_reshape _ _ k

/-! ## Through the three stretches -/

theorem e_at2 (c : Dev nD) : W2 m ρ c (Proc.devRef .tc main_arg1) = m ((c : Thread nD τ).loc main_arg1) :=
  (W2_of_ne m ρ c main_arg1 (by decide)).trans (entry0_e m ρ c)

theorem h_at3 (c : Dev nD) : W3 m ρ c (Proc.devRef .tc main_v1) = W2 m ρ c (Proc.devRef .tc main_v1) := by unwritten
theorem h_at4 (c : Dev nD) : W4 m ρ c (Proc.devRef .tc main_v1) = W2 m ρ c (Proc.devRef .tc main_v1) :=
  (show W4 m ρ c (Proc.devRef .tc main_v1) = W3 m ρ c (Proc.devRef .tc main_v1) by unwritten).trans (h_at3 m ρ c)
theorem src_at4 (c : Dev nD) : W4 m ρ c (Proc.devRef .tc main_v7) = Agg.sources (m ((c : Thread nD τ).loc main_arg1)) :=
  (show W4 m ρ c (Proc.devRef .tc main_v7) = W3 m ρ c (Proc.devRef .tc main_v7) by unwritten).trans
    ((Agg.s1_sources (W2 m ρ c)).trans (by rw [e_at2]))
theorem tgt_at4 (c : Dev nD) : W4 m ρ c (Proc.devRef .tc main_v8) = Agg.targets (m ((c : Thread nD τ).loc main_arg1)) :=
  (show W4 m ρ c (Proc.devRef .tc main_v8) = W3 m ρ c (Proc.devRef .tc main_v8) by unwritten).trans
    ((Agg.s1_targets (W2 m ρ c)).trans (by rw [e_at2]))
theorem dinv_at4 (c : Dev nD) :
    W4 m ρ c (Proc.devRef .tc main_v16)
      = Agg.normaliser (Agg.positive (Agg.degree (Agg.targets (m ((c : Thread nD τ).loc main_arg1)))))
          (Host.rsqrt (Agg.degree (Agg.targets (m ((c : Thread nD τ).loc main_arg1))))) (constant (F := Ideal) S_ .f32 0x00000000#32) := by
  refine (Agg.s2_normaliser (W3 m ρ c)).trans ?_
  rw [show W3 m ρ c (Proc.devRef .tc main_v14) = _ from Agg.s1_positive (W2 m ρ c),
    show W3 m ρ c (Proc.devRef .tc main_v15) = _ from Agg.s1_rsqrt (W2 m ρ c),
    show W3 m ρ c (Proc.devRef .tc main_cst_2) = _ from Agg.s1_zero (W2 m ρ c), e_at2]

/-- The aggregated array when the second region is entered. -/
theorem entry1_agg (c : Dev nD) :
    W5 m ρ c (Proc.devRef .tc main_v44) = Agg.aggregate (W2 m ρ c (Proc.devRef .tc main_v1)) (m ((c : Thread nD τ).loc main_arg1)) := by
  refine (Agg.s3_aggregated (W4 m ρ c)).trans ?_
  rw [h_at4, src_at4, tgt_at4, dinv_at4]
  rfl

/-! ## The second region's other operands at its entry -/

theorem at5_of_launch (c : Dev nD) (b : Ref sig .tc) (hb : ∀ w, Pipeline.arrRef spec1 w ≠ b)
    (h6 : W6 m ρ c (Proc.devRef .tc b) = m ((c : Thread nD τ).loc b)) : W5 m ρ c (Proc.devRef .tc b) = m ((c : Thread nD τ).loc b) :=
  (W6_of_ne m ρ c b hb).symm.trans h6

theorem entry1_w2 (c : Dev nD) : W5 m ρ c (Proc.devRef .tc main_arg6) = m ((c : Thread nD τ).loc main_arg6) :=
  ((W6_arr m ρ c 2).trans (((dat1 (V5 m ρ) c).arrAt_in 2 rfl _).trans (A_eq1 (V5 m ρ) c 2))).symm.trans (W6_main_arg6 m ρ c)
theorem bg_at4 (c : Dev nD) : W4 m ρ c (Proc.devRef .tc main_arg5) = m ((c : Thread nD τ).loc main_arg5) :=
  (show W4 m ρ c (Proc.devRef .tc main_arg5) = W5 m ρ c (Proc.devRef .tc main_arg5) from (by unwritten : W5 m ρ c (Proc.devRef .tc main_arg5) = W4 m ρ c (Proc.devRef .tc main_arg5)).symm).trans
    (at5_of_launch m ρ c main_arg5 (by decide) (W6_main_arg5 m ρ c))
theorem b2_at4 (c : Dev nD) : W4 m ρ c (Proc.devRef .tc main_arg7) = m ((c : Thread nD τ).loc main_arg7) :=
  (show W4 m ρ c (Proc.devRef .tc main_arg7) = W5 m ρ c (Proc.devRef .tc main_arg7) from (by unwritten : W5 m ρ c (Proc.devRef .tc main_arg7) = W4 m ρ c (Proc.devRef .tc main_arg7)).symm).trans
    (at5_of_launch m ρ c main_arg7 (by decide) (W6_main_arg7 m ρ c))
theorem entry1_bg (c : Dev nD) :
    W5 m ρ c (Proc.devRef .tc main_v45) = shapeCast S1x128 (m ((c : Thread nD τ).loc main_arg5)) shapeCasts_S128_S1x128 :=
  (Agg.s3_bias_g (W4 m ρ c)).trans (by rw [bg_at4])
theorem entry1_b2 (c : Dev nD) :
    W5 m ρ c (Proc.devRef .tc main_v46) = shapeCast S1x128 (m ((c : Thread nD τ).loc main_arg7)) shapeCasts_S128_S1x128 :=
  (Agg.s3_bias_2 (W4 m ρ c)).trans (by rw [b2_at4])

/-! ## The result -/

/-- The result buffer at the last boundary. -/
theorem result (c : Dev nD) :
    W6 m ρ c (Proc.devRef .tc main_v47)
      = Dense.postAgg (n := 50000)
          (Agg.aggregate
            (Dense.preAgg (n := 50000) (m ((c : Thread nD τ).loc main_arg0)) (m ((c : Thread nD τ).loc main_arg2))
              (fun k => m ((c : Thread nD τ).loc main_arg3) (ix1 k)) (m ((c : Thread nD τ).loc main_arg4)))
            (m ((c : Thread nD τ).loc main_arg1)))
          (fun k => m ((c : Thread nD τ).loc main_arg5) (ix1 k)) (m ((c : Thread nD τ).loc main_arg6))
          (fun k => m ((c : Thread nD τ).loc main_arg7) (ix1 k)) := by
  refine ((W6_arr m ρ c 4).trans (Reg1.final (V5 m ρ) c)).trans ?_
  unfold Reg1.G
  refine Dense.postAgg_eq_of ((entry1_agg m ρ c).trans (by rw [exit0])) (funext fun k => ?_) (entry1_w2 m ρ c) (funext fun k => ?_)
  · show W5 m ρ c (Proc.devRef .tc main_v45) (ix2 0 k) = _
    rw [entry1_bg]
    exact Dense.row_of_reshape _ _ k
  · show W5 m ρ c (Proc.devRef .tc main_v46) (ix2 0 k) = _
    rw [entry1_b2]
    exact Dense.row_of_reshape _ _ k

end Cert.KernelIdeal.KValue

end
-- ==== Proof.RefValue.lean ====
/-
  The reference's result as the same two dense ends around the aggregation.

  The reference computes relu(x·W₁ + b₁)·Wg on the whole node array, aggregates it along the edges, and finishes with
  relu(agg + bg)·W₂ + b₂. Read stage by stage at an index, its first stretch is the transform before the aggregation and
  its last stretch the transform after it; the stretch in between — the normalised gather and scatter-add along the edges —
  is kept as one function `aggregate` of the transformed node array and the edge array, never opened.
-/
import proofs.«128652_j71854802862196_1_alg».proof.Proof.RefRead
import proofs.«128652_j71854802862196_1_alg».proof.Proof.Dense

noncomputable section

namespace Cert.ReferenceIdeal.RefValue

open Cert.ReferenceIdeal Cert.ReferenceIdeal.Gen Cert.ReferenceIdeal.RefRead Idealize.ShloMosaic Idealize.ShloMosaic.ValueIdx

/-- The aggregation along the edges, as the reference's stages state it: the rows of `h` gathered at the edges' sources,
    scaled by the two endpoints' normalisers, scatter-added at the targets into a zero array. -/
def aggregate {F : FTy → Type} [FloatOps F] (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S850000x1_S850000x128_1_0_0_1 (val_main_v46 (F := F)) (val_main_v47 (F := F) e)
    (mulf (Host.gather gather_S50000x128_S850000x1_S850000x128_1_0_n_n_0_1_1128 h (val_main_v41 (F := F) e)) (val_main_v44 (F := F) e))

/-- The aggregated stage is `aggregate` of the stage before the aggregation. -/
theorem agg_stage {F : FTy → Type} [FloatOps F] (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F)) (x4 : (⟨S128x128, .f32⟩ : BufTy).Contents (Elt F)) :
    val_main_v48 (F := F) x0 x1 x2 x3 x4 = aggregate (val_main_v5 (F := F) x0 x2 x3 x4) x1 := by
  unfold val_main_v48 val_main_v45 val_main_v42 aggregate
  rfl

/-- The stage before the aggregation is the transform before the aggregation of the node array. -/
theorem head_eq (x0 : (⟨S50000x128, .f32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v5 (F := Ideal) x0 x2 x3 x4 = Dense.preAgg (n := 50000) x0 x2 (fun k => x3 (ix1 k)) x4 := by
  funext i
  obtain ⟨p, q, rfl⟩ : ∃ (p : Fin 50000) (q : Fin 128), i = ix2 p q := ⟨i 0, i 1, eq_ix2 i⟩
  rw [val_main_v5_apply]
  show _ = ∑ k : Fin 128, Dense.hidden x0 x2 (fun k => x3 (ix1 k)) p k * x4 (ix2 k q)
  refine Finset.sum_congr rfl fun k _ => ?_
  have hl : lidx_main_v5 (ix2 p q) k = ix2 p k := funext fun a => Fin.ext (by match a with | ⟨0, _⟩ => rfl | ⟨1, _⟩ => rfl)
  have hr : ridx_main_v5 (ix2 p q) k = ix2 k q := funext fun a => Fin.ext (by match a with | ⟨0, _⟩ => rfl | ⟨1, _⟩ => rfl)
  rw [hl, hr, val_main_v4_apply, val_main_v3_apply, val_main_v0_apply, val_main_v2_apply, val_main_v1_apply, val_main_call0_v0_apply,
    val_main_call0_cst_apply]
  have hb : idx_main_v1 (idx_main_v2 (ix2 p k)) = ix1 k := funext fun a => Fin.ext (by match a with | ⟨0, _⟩ => rfl)
  have hl0 : ∀ j : Fin 128, lidx_main_v0 (ix2 p k) j = ix2 p j := fun j => funext fun a => Fin.ext (by match a with | ⟨0, _⟩ => rfl | ⟨1, _⟩ => rfl)
  have hr0 : ∀ j : Fin 128, ridx_main_v0 (ix2 p k) j = ix2 j k := fun j => funext fun a => Fin.ext (by match a with | ⟨0, _⟩ => rfl | ⟨1, _⟩ => rfl)
  simp only [hb, hl0, hr0]
  rfl

/-- The result stage is the transform after the aggregation of the aggregated stage. -/
theorem tail_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal)) (x7 : (⟨S128, .f32⟩ : BufTy).Contents (Elt Ideal)) :
    val_main_v56 (F := Ideal) x0 x1 x2 x3 x4 x5 x6 x7
      = Dense.postAgg (n := 50000) (val_main_v48 (F := Ideal) x0 x1 x2 x3 x4) (fun k => x5 (ix1 k)) x6 (fun k => x7 (ix1 k)) := by
  funext i
  obtain ⟨p, q, rfl⟩ : ∃ (p : Fin 50000) (q : Fin 128), i = ix2 p q := ⟨i 0, i 1, eq_ix2 i⟩
  rw [val_main_v56_apply, val_main_v53_apply, val_main_v55_apply, val_main_v54_apply]
  have hb2 : idx_main_v54 (idx_main_v55 (ix2 p q)) = ix1 q := funext fun a => Fin.ext (by match a with | ⟨0, _⟩ => rfl)
  rw [hb2]
  show _ = (∑ k : Fin 128, max (val_main_v48 (F := Ideal) x0 x1 x2 x3 x4 (ix2 p k) + x5 (ix1 k)) Dense.zeroWord * x6 (ix2 k q)) + x7 (ix1 q)
  refine congrArg (· + x7 (ix1 q)) (Finset.sum_congr rfl fun k _ => ?_)
  have hl : lidx_main_v53 (ix2 p q) k = ix2 p k := funext fun a => Fin.ext (by match a with | ⟨0, _⟩ => rfl | ⟨1, _⟩ => rfl)
  have hr : ridx_main_v53 (ix2 p q) k = ix2 k q := funext fun a => Fin.ext (by match a with | ⟨0, _⟩ => rfl | ⟨1, _⟩ => rfl)
  rw [hl, hr, val_main_v52_apply, val_main_v51_apply, val_main_v50_apply, val_main_v49_apply, val_main_call2_v0_apply, val_main_call2_cst_apply]
  have hbg : idx_main_v49 (idx_main_v50 (ix2 p k)) = ix1 k := funext fun a => Fin.ext (by match a with | ⟨0, _⟩ => rfl)
  rw [hbg]
  rfl

/-- The reference's result: the transform after the aggregation, of the aggregate of the transform before it. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal)) (x7 : (⟨S128, .f32⟩ : BufTy).Contents (Elt Ideal)) :
    val_main_v56 (F := Ideal) x0 x1 x2 x3 x4 x5 x6 x7
      = Dense.postAgg (n := 50000) (aggregate (F := Ideal) (Dense.preAgg (n := 50000) x0 x2 (fun k => x3 (ix1 k)) x4) x1) (fun k => x5 (ix1 k)) x6 (fun k => x7 (ix1 k)) := by
  rw [tail_eq, agg_stage, head_eq]

end Cert.ReferenceIdeal.RefValue

end
-- ==== Proof.AggSame.lean ====
/-
  The aggregation is the same function in the two programs.

  The kernel program and the reference apply the same host operations to the transformed node array and the edge array:
  the same slices, reshapes, concatenations, scatter-adds, compare, reciprocal square root, selections, gathers and
  products, over records that spell the same dimension numbers. Stated for any float family, so that no operation is
  opened: the two terms agree operation by operation.
-/
import proofs.«128652_j71854802862196_1_alg».proof.Proof.Gen.KernelIdeal
import proofs.«128652_j71854802862196_1_alg».proof.Proof.KAgg
import proofs.«128652_j71854802862196_1_alg».proof.Proof.RefValue

set_option maxRecDepth 16384

noncomputable section

namespace Cert.Proof.AggSame

open Idealize.ShloMosaic

set_option maxHeartbeats 1000000 in
/-- The kernel program's aggregation and the reference's are one function of the transformed node array and the edges. -/
theorem aggregate_same {F : FTy → Type} [FloatOps F] (h : (⟨Cert.KernelIdeal.S50000x128, .f32⟩ : BufTy).Contents (Elt F))
    (e : (⟨Cert.KernelIdeal.S2x800000, .i32⟩ : BufTy).Contents (Elt F)) :
    Cert.KernelIdeal.Agg.aggregate (F := F) h e = Cert.ReferenceIdeal.RefValue.aggregate (F := F) h e := by
  unfold Cert.KernelIdeal.Agg.aggregate Cert.KernelIdeal.Agg.scatterRows Cert.KernelIdeal.Agg.normaliser Cert.KernelIdeal.Agg.positive
    Cert.KernelIdeal.Agg.degree Cert.KernelIdeal.Agg.wrapIdx Cert.KernelIdeal.Agg.sources Cert.KernelIdeal.Agg.targets
    Cert.ReferenceIdeal.RefValue.aggregate
  rfl

end Cert.Proof.AggSame

end
-- ==== Proof.lean ====
/-
  A graph-convolution layer as two dense kernels around a host aggregation, against its plain reference, over the
  extended reals.

  The kernel program transforms every node's features in a first kernel, relu(x·W₁ + b₁)·Wg on row tiles of 2000 nodes,
  aggregates the transformed rows along the edges on the host (self-loops added, each edge scaled by the reciprocal
  square roots of its endpoints' degrees, rows gathered at the sources and scatter-added at the targets), and finishes in
  a second kernel, relu(agg + bg)·W₂ + b₂ on the same tiles. The reference does the same three steps on whole arrays.

  At the ideal instance a change of float format is the identity and a product into a zero accumulator is the plain sum
  over the contracted axis, so each kernel's tile is the corresponding block of one row-local function of the whole
  arrays (Dense.preAgg, Dense.postAgg), and the tiles cover the output. The host aggregation is the same chain of
  operations in both programs and is carried as one function of the transformed array and the edge array, never opened:
  no property of a gather, a scatter-add or the reciprocal square root is used, and the precondition is not needed.
  Both programs' results are postAgg (aggregate (preAgg x W₁ b₁ Wg) e) bg W₂ b₂.

  The ideal pass rewrote nothing in the kernel program, so the idealization claim is trivial.
-/
import proofs.«128652_j71854802862196_1_alg».proof.Defs
import proofs.«128652_j71854802862196_1_alg».proof.Proof.Gen.Kernel
import proofs.«128652_j71854802862196_1_alg».proof.Proof.Gen.Kernel.Skeleton
import proofs.«128652_j71854802862196_1_alg».proof.Proof.Gen.Kernel.Launch
import proofs.«128652_j71854802862196_1_alg».proof.Proof.Gen.Kernel.Points
import proofs.«128652_j71854802862196_1_alg».proof.Proof.Gen.Kernel.Frame
import proofs.«128652_j71854802862196_1_alg».proof.Proof.Gen.KernelIdeal
import proofs.«128652_j71854802862196_1_alg».proof.Proof.Gen.KernelIdeal.Skeleton
import proofs.«128652_j71854802862196_1_alg».proof.Proof.Gen.KernelIdeal.Launch
import proofs.«128652_j71854802862196_1_alg».proof.Proof.Gen.KernelIdeal.Points
import proofs.«128652_j71854802862196_1_alg».proof.Proof.Gen.KernelIdeal.Frame
import proofs.«128652_j71854802862196_1_alg».proof.Proof.Gen.ReferenceIdeal
import proofs.«128652_j71854802862196_1_alg».proof.Proof.Gen.Pre_finite_inputs
import proofs.«128652_j71854802862196_1_alg».proof.Proof.KernelRun
import proofs.«128652_j71854802862196_1_alg».proof.Proof.KHost
import proofs.«128652_j71854802862196_1_alg».proof.Proof.RefRun
import proofs.«128652_j71854802862196_1_alg».proof.Proof.RefRead
import proofs.«128652_j71854802862196_1_alg».proof.Proof.RefValue
import proofs.«128652_j71854802862196_1_alg».proof.Proof.AggSame
import Idealize.ShloMosaic.Adequacy
import Idealize.ShloMosaic.Init

noncomputable section

namespace Cert.Proof

open Idealize.ShloMosaic Idealize.ShloMosaic.ValueIdx Idealize.SL.Sem

/-- The layer's result as a function of the kernel program's launch memory: the transform after the aggregation, of the
    aggregate along the edges of the transform before it. -/
def layer (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v47) :=
  Dense.postAgg (n := 50000)
    (Cert.KernelIdeal.Agg.aggregate
      (Dense.preAgg (n := 50000) (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (fun k => m ((c.tc : Thread Cert.KernelIdeal.nD Cert.KernelIdeal.τ).loc Cert.KernelIdeal.main_arg3) (ix1 k))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)))
    (fun k => m ((c.tc : Thread Cert.KernelIdeal.nD Cert.KernelIdeal.τ).loc Cert.KernelIdeal.main_arg5) (ix1 k))
    (m ((c.tc : Thread Cert.KernelIdeal.nD Cert.KernelIdeal.τ).loc Cert.KernelIdeal.main_arg6))
    (fun k => m ((c.tc : Thread Cert.KernelIdeal.nD Cert.KernelIdeal.τ).loc Cert.KernelIdeal.main_arg7) (ix1 k))

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The reference's result term, at arguments that are the kernel program's, is the layer. -/
theorem reference_is_layer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefRun.res_main_v56 (F := Ideal) m' c = layer m c := by
  rw [Cert.ReferenceIdeal.RefRead.val_main_v56_eq, h0, h1, h2, h3, h4, h5, h6, h7, Cert.ReferenceIdeal.RefValue.result_eq,
    ← Cert.Proof.AggSame.aggregate_same]
  rfl

/-- From memories agreeing on the arguments both programs end at the layer's result. -/
theorem algebraic : Cert.algebraic_KernelIdeal_ReferenceIdeal := by
  intro m ρ m' ρ' _ hagree
  refine ⟨layer m, ?_, ?_⟩
  · exact (θ_run Cert.KernelIdeal.defs _ _).mono
      (fun _ h c => ⟨(h c).1.trans (Cert.KernelIdeal.KValue.result m ρ c), (h c).2⟩) (Cert.KernelIdeal.KRun.run_main m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7⟩ := hagree c
    exact reference_is_layer m m' c h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
